-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x16 : Shape := ⟨4, ![4, 16, 4096, 16]⟩
abbrev S_ : Shape := ⟨0, ![]⟩

class Facts : Prop where
  bcast_S_S4x16x4096x16 : S_.BroadcastsInDim S4x16x4096x16 (![] : Fin 0 → Fin S4x16x4096x16.rank)
  reducesTo_S4x16x4096x16_S_d0_1_2_3 : S4x16x4096x16.ReducesTo [0, 1, 2, 3] S_
  h_S_ : 0 < S_.numel

variable [Facts]

def fn {F : FTy → Type} [FloatOps F] (main_arg0 : FVec F S4x16x4096x16 .f32) : IVec S_ 1 :=
  let main_v0 : FVec F S4x16x4096x16 .f32 := Host.absf main_arg0
  let main_cst : FVec F S_ .f32 := constant S_ .f32 0x7F800000#32
  let main_v1 : FVec F S4x16x4096x16 .f32 := broadcastInDim S4x16x4096x16 ![] bcast_S_S4x16x4096x16 main_cst
  let main_v2 : IVec S4x16x4096x16 1 := cmpf .olt main_v0 main_v1
  let main_c : IVec S_ 1 := constantI S_ 1 1#1
  let main_v3 : IVec S_ 1 := (fun x v => Host.reduce IntOp.andi x v reducesTo_S4x16x4096x16_S_d0_1_2_3 h_S_) main_v2 main_c
  main_v3
-- ==== Kernel.lean ====
abbrev S4x16x4096x16 : Shape := ⟨4, ![4, 16, 4096, 16]⟩
abbrev S64x4096x16 : Shape := ⟨3, ![64, 4096, 16]⟩
abbrev S64x4096x256 : Shape := ⟨3, ![64, 4096, 256]⟩
abbrev S1x4096x16 : Shape := ⟨3, ![1, 4096, 16]⟩
abbrev S1x4096x256 : Shape := ⟨3, ![1, 4096, 256]⟩
abbrev S4096x16 : Shape := ⟨2, ![4096, 16]⟩
abbrev S4096x16x1 : Shape := ⟨3, ![4096, 16, 1]⟩
abbrev S4096x1x16 : Shape := ⟨3, ![4096, 1, 16]⟩
abbrev S4096x16x16 : Shape := ⟨3, ![4096, 16, 16]⟩
abbrev S4096x256 : Shape := ⟨2, ![4096, 256]⟩
abbrev S4x16x4096x256 : Shape := ⟨4, ![4, 16, 4096, 256]⟩

abbrev nBuf : Space → Nat
  | .hbm => 4
  | .vmem => 4
  | .smem => 0
  | _ => 0

abbrev bufTy : (tb : Table) → Fin (tcTables nBuf tb) → BufTy
  | .hbm, ⟨0, _⟩ => ⟨S4x16x4096x16, .f32⟩
  | .hbm, ⟨1, _⟩ => ⟨S64x4096x16, .f32⟩
  | .hbm, ⟨2, _⟩ => ⟨S64x4096x256, .f32⟩
  | .hbm, ⟨3, _⟩ => ⟨S4x16x4096x256, .f32⟩
  | .local _ .vmem, ⟨0, _⟩ => ⟨S1x4096x16, .f32⟩
  | .local _ .vmem, ⟨1, _⟩ => ⟨S1x4096x16, .f32⟩
  | .local _ .vmem, ⟨2, _⟩ => ⟨S1x4096x256, .f32⟩
  | .local _ .vmem, ⟨3, _⟩ => ⟨S1x4096x256, .f32⟩
  | _, _ => ⟨S4x16x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x16x4096x16_S64x4096x16 : S4x16x4096x16.ShapeCasts S64x4096x16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  shapeCasts_S4096x16_S4096x16x1 : S4096x16.ShapeCasts S4096x16x1
  shapeCasts_S4096x16_S4096x1x16 : S4096x16.ShapeCasts S4096x1x16
  broadcasts_S4096x16x1_S4096x16x16 : S4096x16x1.Broadcasts S4096x16x16
  broadcasts_S4096x1x16_S4096x16x16 : S4096x1x16.Broadcasts S4096x16x16
  shapeCasts_S4096x16x16_S4096x256 : S4096x16x16.ShapeCasts S4096x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  shapeCasts_S64x4096x256_S4x16x4096x256 : S64x4096x256.ShapeCasts S4x16x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x16.size a ≤ S64x4096x16.size a
  hwx0_0 : ∀ i : grid0.Coords, EltTy.bits .f32 = 32 ∨ (Rect.block (s := S64x4096x16) S1x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S64x4096x256.size a
  hwx0_1 : ∀ i : grid0.Coords, EltTy.bits .f32 = 32 ∨ (Rect.block (s := S64x4096x256) S1x4096x256.size (cc0_transform_1 i) (hinb0_1 i)).WholeWords (EltTy.packing .f32)

variable [Facts₀]

abbrev win0_0 : Pipeline.Window sig grid0 :=
  Pipeline.Window.ofSpec (Memref.whole main_v0) S1x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x16x4096x16 : Shape := ⟨4, ![4, 16, 4096, 16]⟩
abbrev S4x16x4096x16x1 : Shape := ⟨5, ![4, 16, 4096, 16, 1]⟩
abbrev S4x16x4096x1x16 : Shape := ⟨5, ![4, 16, 4096, 1, 16]⟩
abbrev S4x16x4096x16x16 : Shape := ⟨5, ![4, 16, 4096, 16, 16]⟩
abbrev S4x16x4096x256 : Shape := ⟨4, ![4, 16, 4096, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x16x4096x16, .f32⟩
  | .hbm, ⟨1, _⟩ => ⟨S4x16x4096x16x1, .f32⟩
  | .hbm, ⟨2, _⟩ => ⟨S4x16x4096x1x16, .f32⟩
  | .hbm, ⟨3, _⟩ => ⟨S4x16x4096x16x16, .f32⟩
  | .hbm, ⟨4, _⟩ => ⟨S4x16x4096x16x16, .f32⟩
  | .hbm, ⟨5, _⟩ => ⟨S4x16x4096x16x16, .f32⟩
  | .hbm, ⟨6, _⟩ => ⟨S4x16x4096x256, .f32⟩
  | .hbm, ⟨7, _⟩ => ⟨S_, .f32⟩
  | .hbm, ⟨8, _⟩ => ⟨S4x16x4096x256, .f32⟩
  | .hbm, ⟨9, _⟩ => ⟨S4x16x4096x256, .f32⟩
  | _, _ => ⟨S4x16x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4x16x4096x16_S4x16x4096x16x1_0_1_2_3 : S4x16x4096x16.BroadcastsInDim S4x16x4096x16x1 (![0, 1, 2, 3] : Fin 4 → Fin S4x16x4096x16x1.rank)
  bcast_S4x16x4096x16_S4x16x4096x1x16_0_1_2_4 : S4x16x4096x16.BroadcastsInDim S4x16x4096x1x16 (![0, 1, 2, 4] : Fin 4 → Fin S4x16x4096x1x16.rank)
  bcast_S4x16x4096x16x1_S4x16x4096x16x16_0_1_2_3_4 : S4x16x4096x16x1.BroadcastsInDim S4x16x4096x16x16 (![0, 1, 2, 3, 4] : Fin 5 → Fin S4x16x4096x16x16.rank)
  bcast_S4x16x4096x1x16_S4x16x4096x16x16_0_1_2_3_4 : S4x16x4096x1x16.BroadcastsInDim S4x16x4096x16x16 (![0, 1, 2, 3, 4] : Fin 5 → Fin S4x16x4096x16x16.rank)
  shapeCasts_S4x16x4096x16x16_S4x16x4096x256 : S4x16x4096x16x16.ShapeCasts S4x16x4096x256
  bcast_S_S4x16x4096x256 : S_.BroadcastsInDim S4x16x4096x256 (![] : Fin 0 → Fin S4x16x4096x256.rank)

variable [Facts₀]

class Facts : Prop extends Facts₀ where

variable [Facts]
-- ==== Proof.OuterSpec.lean ====
/-
  The function both programs compute, stated once over literal shapes, and the arithmetic that joins them.

  For an input `X` of shape [4, 16, 4096, 16] the result has shape [4, 16, 4096, 256]: lane `l` of a row
  holds the product of the row's entries `l / 16` and `l % 16`, scaled by a quarter — the flattened outer
  product of the row with itself over the square root of its length, `sqrt 16 = 4`.
  One program multiplies by the literal `0.25`, the other divides by the literal `4.0`. Both literals are
  exact dyadic numbers, and on the extended reals a quotient by a nonzero real is the product with its
  reciprocal at every operand, infinite ones included, so no finiteness of `X` is needed.
-/
import Idealize.ShloMosaic.PureOps.Ideal
import Idealize.ShloMosaic.Lib.ValueIdx

noncomputable section

namespace Cert.Outer

open Idealize.ShloMosaic Idealize.ShloMosaic.ValueIdx

/-- The input's shape and the result's. -/
abbrev SIn : Shape := ⟨4, ![4, 16, 4096, 16]⟩
abbrev SOut : Shape := ⟨4, ![4, 16, 4096, 256]⟩

/-- The pattern `0x3E800000` denotes the real `1/4`. -/
theorem ofBits_quarter : Ideal.ofBits .f32 0x3E800000#32 = ((1 / 4 : ℝ) : EReal) := by
  simp [Ideal.ofBits, Ideal.ieee, -EReal.coe_mul]; norm_num

/-- The pattern `0x40800000` denotes the real `4`. -/
theorem ofBits_four : Ideal.ofBits .f32 0x40800000#32 = ((4 : ℝ) : EReal) := by
  simp [Ideal.ofBits, Ideal.ieee, -EReal.coe_mul]; norm_num

/-- Dividing by four is multiplying by a quarter, at every extended real. -/
theorem div_four (s : EReal) : Ideal.div s ((4 : ℝ) : EReal) = s * ((1 / 4 : ℝ) : EReal) :=
  Ideal.div_coe (by norm_num) s

/-- Lane `l` of a result row pairs the row's entry `l / 16` … -/
def laneHi (l : Fin 256) : Fin 16 := ⟨l.val / 16, by have := l.isLt; omega⟩
/-- … with its entry `l % 16`. -/
def laneLo (l : Fin 256) : Fin 16 := ⟨l.val % 16, by have := l.isLt; omega⟩

theorem laneHi_val (l : Fin 256) : (laneHi l).val = l.val / 16 := rfl
theorem laneLo_val (l : Fin 256) : (laneLo l).val = l.val % 16 := rfl

/-- The scaled outer product of each row with itself, flattened: the result as one function of the input. -/
def outer (X : SIn.Idx → EReal) : SOut.Idx → EReal := fun i =>
  X (ix4 (n0 := 4) (n1 := 16) (n2 := 4096) (n3 := 16) (i 0) (i 1) (i 2) (laneHi (i 3)))
    * X (ix4 (n0 := 4) (n1 := 16) (n2 := 4096) (n3 := 16) (i 0) (i 1) (i 2) (laneLo (i 3)))
    * ((1 / 4 : ℝ) : EReal)

theorem outer_apply (X : SIn.Idx → EReal) (b : Fin 4) (h : Fin 16) (s : Fin 4096) (l : Fin 256) :
    outer X (ix4 b h s l) = X (ix4 b h s (laneHi l)) * X (ix4 b h s (laneLo l)) * ((1 / 4 : ℝ) : EReal) := rfl

end Cert.Outer

end
-- ==== Proof.LibOuterLayout.lean ====
/-
  Layout operations of an outer product read at an index given by coordinates, for any extents.

  A matrix `[a, b]` is viewed as `[a, b, 1]` and as `[a, 1, b]`, each view is broadcast to `[a, b, c]`, and a
  rank-3 array `[a, b, c]` is flattened to `[a, n]` with `n = b * c`: lane `l` of row `i` of the flat array is
  entry `(i, l / c, l % c)`, because both have row-major position `i * (b * c) + l`.
-/
import Idealize.ShloMosaic.Lib.Pipeline.Value
import Idealize.ShloMosaic.Lib.ValueIdx

namespace Cert.OuterLayout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by
        show i.val = if a = 1 then 0 else i.val
        by_cases ha : a = 1
        · rw [if_pos ha]; have := i.isLt; omega
        · rw [if_neg ha]
    | ⟨1, _⟩ => by
        show j.val = if b = 1 then 0 else j.val
        by_cases hb : b = 1
        · rw [if_pos hb]; have := j.isLt; omega
        · rw [if_neg hb]
    | ⟨2, _⟩ => by
        show (0 : ℕ) = if (1 : ℕ) = 1 then 0 else k.val
        rw [if_pos rfl])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun d => match d with
    | ⟨0, _⟩ => by
        show i.val = if a = 1 then 0 else i.val
        by_cases ha : a = 1
        · rw [if_pos ha]; have := i.isLt; omega
        · rw [if_neg ha]
    | ⟨1, _⟩ => by
        show (0 : ℕ) = if (1 : ℕ) = 1 then 0 else j.val
        rw [if_pos rfl]
    | ⟨2, _⟩ => by
        show k.val = if c = 1 then 0 else k.val
        by_cases hc : c = 1
        · rw [if_pos hc]; have := k.isLt; omega
        · rw [if_neg hc])

/-- An `[a, b, c]` array flattened to `[a, n]`, `n = b * c`, reads, at `(i, l)`, the operand at `(i, l / c, l % c)`
    (the caller names the two coordinates and gives their values). -/
theorem shapeCast_abc_an_apply {a b c n : ℕ} (x : (⟨3, ![a, b, c]⟩ : Shape).Idx → α)
    (h : (⟨3, ![a, b, c]⟩ : Shape).ShapeCasts ⟨2, ![a, n]⟩) (hn : n = b * c) (i : Fin a) (l : Fin n)
    (p : Fin b) (q : Fin c) (hp : p.val = l.val / c) (hq : q.val = l.val % c) :
    shapeCast ⟨2, ![a, n]⟩ x h (ix2 i l) = x (ix3 i p q) :=
  shapeCast_apply x h _ _ (by
    subst hn
    have key : ∀ L : ℕ, (i.val * b + L / c) * c + L % c = i.val * (b * c) + L := fun L => by
      rw [Nat.add_mul, Nat.mul_assoc, Nat.add_assoc, Nat.div_add_mod']
    rw [Shape.rowMajor_val_three, Shape.rowMajor_val_two]
    show (i.val * b + p.val) * c + q.val = i.val * (b * c) + l.val
    rw [hp, hq]
    exact key l.val)

end Cert.OuterLayout
-- ==== Proof.BlockOuter.lean ====
/-
  What the kernel body stores for one block, read at an index.

  The body loads a `[1, 4096, 16]` block, drops the unit axis, views the rows as columns `[4096, 16, 1]` and as rows
  `[4096, 1, 16]`, broadcasts both to `[4096, 16, 16]`, multiplies, flattens to `[4096, 256]`, scales by the literal a
  quarter and puts the unit axis back. So entry `(0, s, l)` of what it stores is the product of entries `(0, s, l / 16)`
  and `(0, s, l % 16)` of what it loaded, times a quarter.
-/
import proofs.«124132_j23983097380979_1_alg».proof.Proof.Gen.KernelIdeal.Skeleton
import proofs.«124132_j23983097380979_1_alg».proof.Proof.OuterSpec
import proofs.«124132_j23983097380979_1_alg».proof.Proof.LibOuterLayout
import Idealize.ShloMosaic.Lib.ValueLayout

noncomputable section

namespace Cert.KernelIdeal.BlockOuter

open Cert.KernelIdeal Cert.KernelIdeal.Gen
open Idealize.ShloMosaic Idealize.ShloMosaic.ValueIdx Cert.Outer Cert.OuterLayout

/-- The stored block at `(u, s, l)` from the loaded block `x0`. -/
theorem pay_apply (x0 : Vec Ideal S1x4096x16 .f32) (u : Fin 1) (s : Fin 4096) (l : Fin 256) :
    k0_pay1 (F := Ideal) x0 (ix3 u s l)
      = x0 (ix3 (0 : Fin 1) s (laneHi l)) * x0 (ix3 (0 : Fin 1) s (laneLo l)) * ((1 / 4 : ℝ) : EReal) := by
  unfold k0_pay1
  -- the unit axis put back, then the scaling
  refine (shapeCast_ab_1ab_apply _ _ u s l).trans ?_
  refine (mulf_apply _ _ _).trans ?_
  refine congrArg₂ (· * ·) ?_ ofBits_quarter
  -- the flattening: lane `l` is entry `(l / 16, l % 16)` of the square
  refine (shapeCast_abc_an_apply _ _ (by norm_num) s l (laneHi l) (laneLo l) rfl rfl).trans ?_
  refine (mulf_apply _ _ _).trans ?_
  refine congrArg₂ (· * ·) ?_ ?_
  · -- the column view, broadcast along the last axis
    refine (broadcastTo_ab1_abc_apply _ _ s (laneHi l) (laneLo l)).trans ?_
    refine (shapeCast_ab_ab1_apply _ _ s (laneHi l) (0 : Fin 1)).trans ?_
    exact shapeCast_1ab_ab_apply _ _ s (laneHi l)
  · -- the row view, broadcast along the middle axis
    refine (broadcastTo_a1c_abc_apply _ _ s (laneHi l) (laneLo l)).trans ?_
    refine (shapeCast_ab_a1b_apply _ _ s (0 : Fin 1) (laneLo l)).trans ?_
    exact shapeCast_1ab_ab_apply _ _ s (laneLo l)

end Cert.KernelIdeal.BlockOuter

end
-- ==== Proof.ArrayOuter.lean ====
/-
  From blocks to the array: what the region leaves in its output array.

  The grid has 64 points. Point `t` fetches row-group `t` of the `[64, 4096, 16]` input — its block `(t, 0, 0)` of
  extents `[1, 4096, 16]` — and writes back row-group `t` of the `[64, 4096, 256]` output. By the body's value at an
  index, what point `t` writes back is block `t` of ONE function of the whole input array: entry `(g, s, l)` is the
  product of the input's entries `(g, s, l / 16)` and `(g, s, l % 16)`, times a quarter. Every output index `(g, s, l)`
  lies in the block of point `g`, so after the run the output array is that function.
-/
import proofs.«124132_j23983097380979_1_alg».proof.Proof.Gen.KernelIdeal.Frame
import proofs.«124132_j23983097380979_1_alg».proof.Proof.BlockOuter
import Idealize.ShloMosaic.Lib.Pipeline.Value

set_option maxRecDepth 16384

noncomputable section

namespace Cert.KernelIdeal.ArrayOuter

open Cert.KernelIdeal Cert.KernelIdeal.Gen Cert.KernelIdeal.BlockOuter
open Idealize.ShloMosaic Idealize.ShloMosaic.TcCoe Idealize.ShloMosaic.ValueIdx Idealize.SL.Sem Cert.Outer
open Idealize.ShloMosaic.Pipeline (Dat)

variable (m : (ℓ : Loc nD τ sig) → Buf (Elt Ideal) ℓ)

/-- The region's function: the scaled flattened outer product of each row of a `[64, 4096, 16]` array. -/
def mid (Y : S64x4096x16.Idx → EReal) : S64x4096x256.Idx → EReal := fun i =>
  Y (ix3 (n0 := 64) (n1 := 4096) (n2 := 16) (i 0) (i 1) (laneHi (i 2)))
    * Y (ix3 (n0 := 64) (n1 := 4096) (n2 := 16) (i 0) (i 1) (laneLo (i 2)))
    * ((1 / 4 : ℝ) : EReal)

theorem mid_apply (Y : S64x4096x16.Idx → EReal) (g : Fin 64) (s : Fin 4096) (l : Fin 256) :
    mid Y (ix3 g s l) = Y (ix3 g s (laneHi l)) * Y (ix3 g s (laneLo l)) * ((1 / 4 : ℝ) : EReal) := rfl

theorem zero_offsets : (![0, 0, 0] : Fin 3 → Nat) = fun _ => 0 := funext fun a => by fin_cases a <;> rfl

/-- Both windows' block index at point `t` is `(t, 0, 0)`, decided over the 64 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A stored block whose loaded block is row-group `g` of `Y` is row-group `g` of `mid Y`. -/
theorem block_eq (Y : S64x4096x16.Idx → EReal) (x0 : Vec Ideal S1x4096x16 .f32) (g : Fin 64)
    (hx : ∀ (s : Fin 4096) (d : Fin 16), x0 (ix3 (0 : Fin 1) s d) = Y (ix3 g s d)) (j : S1x4096x256.Idx) :
    k0_pay1 (F := Ideal) x0 j = mid Y (ix3 (n0 := 64) (n1 := 4096) (n2 := 256) g (j 1) (j 2)) := by
  obtain ⟨u, s, l, rfl⟩ : ∃ (u : Fin 1) (s : Fin 4096) (l : Fin 256), j = ix3 u s l := ⟨j 0, j 1, j 2, eq_ix3 j⟩
  rw [pay_apply, hx, hx]
  rfl

/-- The input block at point `t` is row-group `t` of the input array as the region finds it. -/
theorem read_in (c : Dev nD) (t : Fin cfg0.N) (s : Fin 4096) (d : Fin 16) :
    (iblk m c 0 t : Vec Ideal S1x4096x16 .f32) (ix3 (0 : Fin 1) s d) = V m c main_v0 (ix3 (Fin.cast N_0 t) s d) := by
  obtain ⟨e0, e1, e2, -, -, -⟩ := idx_facts t
  show V m c main_v0 (((cfg0.win 0).blk t).view.emb (ix3 (0 : Fin 1) s d)) = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 16 + 1 * d.val = d.val; omega

/-- What point `t` writes back is block `t` of `mid` of the input array. -/
theorem flushed_eq (c : Dev nD) (t : Fin cfg0.N) :
    (dats m 0 c).flushed 1 t = ((cfg0.win 1).blk t).view.read (Elt Ideal) (mid (V m c main_v0)) := by
  show (cfg0.win 1).cut (grid0.coords t) ((dats m 0 c).after 1 t) = _
  rw [after0_1]
  unfold out0_1
  rw [View.canon_unit_zero zero_offsets]
  simp only [View.ld_unit_zero (S := S1x4096x16) zero_offsets]
  obtain ⟨-, -, -, e0, e1, e2⟩ := idx_facts t
  funext j
  refine (block_eq (V m c main_v0) (iblk m c 0 t) (Fin.cast N_0 t) (read_in m c t) j).trans ?_
  show _ = mid (V m c main_v0) (((cfg0.win 1).blk t).view.emb j)
  refine congrArg (mid (V m c main_v0)) (funext fun a => Fin.ext ?_)
  match a with
  | ⟨0, _⟩ =>
    show t.val = win0_1.index t (0 : Fin 3) * 1 + 1 * (j 0).val
    have hj : (j 0).val < 1 := (j 0).isLt
    omega
  | ⟨1, _⟩ => show (j 1).val = win0_1.index t (1 : Fin 3) * 4096 + 1 * (j 1).val; omega
  | ⟨2, _⟩ => show (j 2).val = win0_1.index t (2 : Fin 3) * 256 + 1 * (j 2).val; omega

/-- An index of the output array is in point `t`'s block iff each coordinate is in the block's range on its axis. -/
theorem mem_blk (t : Fin cfg0.N) (i : S64x4096x256.Idx) :
    i ∈ ((cfg0.win 1).blk t).view.set ↔ ∀ a : Fin 3, win0_1.index t a * S1x4096x256.size a ≤ (i a).val
      ∧ (i a).val < win0_1.index t a * S1x4096x256.size a + S1x4096x256.size a := by
  show i ∈ ((View.whole main_v1).slice (win0_1.rect t)).set ↔ _
  rw [View.set_slice_whole, Rect.mem_set_unit]
  exact Iff.rfl

/-- Every output index `(g, s, l)` is in the block point `g` writes back. -/
theorem cover (i : S64x4096x256.Idx) :
    ∃ t : Fin cfg0.N, (cfg0.win 1).flush t = true ∧ i ∈ ((cfg0.win 1).blk t).view.set := by
  have h0 : (i 0).val < 64 := (i 0).isLt
  have h1 : (i 1).val < 4096 := (i 1).isLt
  have h2 : (i 2).val < 256 := (i 2).isLt
  have hN : cfg0.N = 64 := N_0
  obtain ⟨t, ht⟩ : ∃ t : Fin cfg0.N, t.val = (i 0).val := ⟨⟨(i 0).val, by omega⟩, rfl⟩
  obtain ⟨-, -, -, e0, e1, e2⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 256 ≤ (i 2).val ∧ (i 2).val < win0_1.index t (2 : Fin 3) * 256 + 256; omega

/-- The output array after the run is `mid` of the input array as the region finds it. -/
theorem region_final (c : Dev nD) : (dats m 0 c).arrAt 1 cfg0.N = mid (V m c main_v0) :=
  (dats m 0 c).arrAt_eq_of_cover 1 (mid (V m c main_v0)) (fun t _ => flushed_eq m c t) cover

end Cert.KernelIdeal.ArrayOuter

end
-- ==== Proof.ResultOuter.lean ====
/-
  The kernel program's result as a function of its input, and its run re-posted at that function.

  The program reshapes the `[4, 16, 4096, 16]` input to `[64, 4096, 16]` (row-group `g = 16 b + h`), runs the region,
  and reshapes the region's `[64, 4096, 256]` output back to `[4, 16, 4096, 256]`. Both reshapes keep row-major
  positions, so entry `(b, h, s, l)` of the result is the region's entry `(16 b + h, s, l)`, whose two factors are
  the input's entries `(b, h, s, l / 16)` and `(b, h, s, l % 16)`: the result is `Cert.Outer.outer` of the input.
-/
import proofs.«124132_j23983097380979_1_alg».proof.Proof.ArrayOuter
import Idealize.ShloMosaic.Lib.StableHlo.Run

set_option maxRecDepth 16384

noncomputable section

namespace Cert.KernelIdeal.ResultOuter

open Cert.KernelIdeal Cert.KernelIdeal.Gen Cert.KernelIdeal.ArrayOuter
open Idealize.ShloMosaic Idealize.ShloMosaic.TcCoe Idealize.ShloMosaic.ValueIdx Idealize.SL.Sem Cert.Outer
open Idealize.ShloMosaic.StableHlo

variable (m : (ℓ : Loc nD τ sig) → Buf (Elt Ideal) ℓ) (ρ : Dev nD → PrngReg)

/-- The region finds its input array at the program's input, reshaped. -/
theorem entry_eq (c : Dev nD) :
    (V m c main_v0 : S64x4096x16.Idx → EReal)
      = shapeCast S64x4096x16 (m ((c : Thread nD τ).loc main_arg0)) shapeCasts_S4x16x4096x16_S64x4096x16 := by
  show StableHlo.after hostOps0 (fun b => m (c, b)) (Proc.devRef .tc main_v0) = _
  after_results
  rfl

/-- Row-group `g = 16 b + h` of the region's input is row `(b, h)` of the program's input. -/
theorem entry_apply (c : Dev nD) (g : Fin 64) (s : Fin 4096) (d : Fin 16) (b : Fin 4) (h : Fin 16)
    (hg : g.val = b.val * 16 + h.val) :
    (V m c main_v0 : S64x4096x16.Idx → EReal) (ix3 g s d) = m ((c : Thread nD τ).loc main_arg0) (ix4 b h s d) :=
  (congrFun (entry_eq m c) (ix3 g s d)).trans
    (shapeCast_apply _ shapeCasts_S4x16x4096x16_S64x4096x16 (ix3 g s d) (ix4 b h s d) (by
      rw [Shape.rowMajor_val_four, Shape.rowMajor_val_three]
      show ((b.val * 16 + h.val) * 4096 + s.val) * 16 + d.val = (g.val * 4096 + s.val) * 16 + d.val
      rw [hg]))

/-- The program's result after the host line that follows the region: the region's output, reshaped. -/
theorem tail_eq (c : Dev nD) :
    (Pipeline.afterTail₀ cfgs (dats m) 0 (V0 m) [hostOps1] c main_v2 : S4x16x4096x256.Idx → EReal)
      = shapeCast S4x16x4096x256 (mid (V m c main_v0)) shapeCasts_S64x4096x256_S4x16x4096x256 := by
  unfold Pipeline.afterTail₀
  show StableHlo.after hostOps1 _ (Proc.devRef .tc main_v2) = _
  after_results
  rw [(Pipeline.withArrays_arr spec0 launch0.win.arr_inj c _ _ 1).trans (region_final m c)]
  rfl

/-- The program's result is `outer` of its input. -/
theorem result_eq (c : Dev nD) :
    (Pipeline.afterTail₀ cfgs (dats m) 0 (V0 m) [hostOps1] c main_v2 : S4x16x4096x256.Idx → EReal)
      = outer (m ((c : Thread nD τ).loc main_arg0)) := by
  rw [tail_eq]
  funext i
  obtain ⟨b, h, s, l, rfl⟩ : ∃ (b : Fin 4) (h : Fin 16) (s : Fin 4096) (l : Fin 256), i = ix4 b h s l :=
    ⟨i 0, i 1, i 2, i 3, eq_ix4 i⟩
  have hb := b.isLt
  have hh := h.isLt
  have hg : b.val * 16 + h.val < 64 := by omega
  refine (shapeCast_apply _ shapeCasts_S64x4096x256_S4x16x4096x256 (ix4 b h s l)
    (ix3 (⟨b.val * 16 + h.val, hg⟩ : Fin 64) s l) (by
      rw [Shape.rowMajor_val_three, Shape.rowMajor_val_four]
      rfl)).trans ?_
  rw [mid_apply, entry_apply m c _ s _ b h rfl, entry_apply m c _ s _ b h rfl, outer_apply]

/-- Every weakly fair execution of the kernel program terminates with its result at `outer` of its input and the
    input unchanged. -/
theorem run : θ_run defs (onTc (τ := τ) (main (F := Ideal))) ⟨m, fun _ => 0, ρ⟩ fun r => ∀ c : Dev nD,
      r.2.mem ((c : Thread nD τ).loc main_v2) = outer (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.ResultOuter

end
-- ==== Proof.RefOuter.lean ====
/-
  The reference's result, read one operation at a time, is the scaled flattened outer product `Cert.Outer.outer`.

  The reference views the input as `[.., 16, 1]` and `[.., 1, 16]`, broadcasts both to `[.., 16, 16]`, multiplies, flattens
  the last two axes to 256 lanes and divides by the literal four. Lane `l` of the flat row is entry `(l / 16, l % 16)` of
  the square, whose two factors are the row's entries `l / 16` and `l % 16`; the quotient by four is the product with a
  quarter.
-/
import proofs.«124132_j23983097380979_1_alg».proof.Proof.Gen.ReferenceIdeal.Read
import proofs.«124132_j23983097380979_1_alg».proof.Proof.OuterSpec

noncomputable section

namespace Cert.ReferenceIdeal.RefOuter

open Cert.ReferenceIdeal Cert.ReferenceIdeal.Gen Cert.ReferenceIdeal.Read
open Idealize.ShloMosaic Idealize.ShloMosaic.ValueIdx Cert.Outer

/-- The first factor's index: through the flattening, the broadcast along the last axis and the trailing unit axis,
    lane `l` of row `(b, h, s)` reads the input at `(b, h, s, l / 16)`. -/
theorem idx_first (b : Fin 4) (h : Fin 16) (s : Fin 4096) (l : Fin 256) :
    idx_main_v0 (idx_main_v2 (idx_main_v5 (ix4 b h s l))) = ix4 b h s (laneHi l) := by
  have hb := b.isLt; have hh := h.isLt; have hs := s.isLt; have hl := l.isLt
  funext a; apply Fin.ext
  match a with
  | ⟨0, _⟩ => show (((b.val * 16 + h.val) * 4096 + s.val) * 256 + l.val) / 16777216 = b.val; omega
  | ⟨1, _⟩ => show (((b.val * 16 + h.val) * 4096 + s.val) * 256 + l.val) / 1048576 % 16 = h.val; omega
  | ⟨2, _⟩ => show (((b.val * 16 + h.val) * 4096 + s.val) * 256 + l.val) / 256 % 4096 = s.val; omega
  | ⟨3, _⟩ => show (((b.val * 16 + h.val) * 4096 + s.val) * 256 + l.val) / 16 % 16 = l.val / 16; omega

/-- The second factor's index: lane `l` of row `(b, h, s)` reads the input at `(b, h, s, l % 16)`. -/
theorem idx_second (b : Fin 4) (h : Fin 16) (s : Fin 4096) (l : Fin 256) :
    idx_main_v1 (idx_main_v3 (idx_main_v5 (ix4 b h s l))) = ix4 b h s (laneLo l) := by
  have hb := b.isLt; have hh := h.isLt; have hs := s.isLt; have hl := l.isLt
  funext a; apply Fin.ext
  match a with
  | ⟨0, _⟩ => show (((b.val * 16 + h.val) * 4096 + s.val) * 256 + l.val) / 16777216 = b.val; omega
  | ⟨1, _⟩ => show (((b.val * 16 + h.val) * 4096 + s.val) * 256 + l.val) / 1048576 % 16 = h.val; omega
  | ⟨2, _⟩ => show (((b.val * 16 + h.val) * 4096 + s.val) * 256 + l.val) / 256 % 4096 = s.val; omega
  | ⟨3, _⟩ => show (((b.val * 16 + h.val) * 4096 + s.val) * 256 + l.val) % 16 = l.val % 16; omega

/-- The reference's last stage is `outer` of the input. -/
theorem ref_eq (X : (⟨S4x16x4096x16, .f32⟩ : BufTy).Contents (Elt Ideal)) :
    val_main_v7 (F := Ideal) X = outer X := by
  funext i
  obtain ⟨b, h, s, l, rfl⟩ : ∃ (b : Fin 4) (h : Fin 16) (s : Fin 4096) (l : Fin 256), i = ix4 b h s l :=
    ⟨i 0, i 1, i 2, i 3, eq_ix4 i⟩
  rw [val_main_v7_apply, val_main_v6_apply, val_main_cst_apply, val_main_v5_apply, val_main_v4_apply,
    val_main_v2_apply, val_main_v0_apply, val_main_v3_apply, val_main_v1_apply, idx_first, idx_second, outer_apply]
  simp only [Ideal.hostDivf_def, Ideal.mulf_def, Ideal.ofBits_def, ofBits_four, div_four]

end Cert.ReferenceIdeal.RefOuter

end
-- ==== Proof.lean ====
/-
  The kernel and its reference compute the same function over the extended reals.

  For an input `x` of shape [4, 16, 4096, 16] both produce, of shape [4, 16, 4096, 256], the flattened outer product
  of each row with itself over the square root of the row length: lane `l` of row `(b, h, s)` is
  `x[b, h, s, l / 16] * x[b, h, s, l % 16] / 4`. The kernel multiplies by the literal a quarter inside a region of 64
  grid points, one row-group each, between two host reshapes; the reference broadcasts, multiplies, flattens and
  divides by the literal four. A quotient by four is the product with a quarter at every extended real, so the two
  results agree entry by entry for every input, finite or not.

  The kernel's result is read off its frame run (`ResultOuter.run`), the reference's off its run read one operation
  at a time (`RefOuter.ref_eq`); both are `Cert.Outer.outer` of the input. The idealization rewrote no operation, so
  its statement is `True`.
-/
import proofs.«124132_j23983097380979_1_alg».proof.Defs
import proofs.«124132_j23983097380979_1_alg».proof.Proof.Gen.Kernel
import proofs.«124132_j23983097380979_1_alg».proof.Proof.Gen.Kernel.Skeleton
import proofs.«124132_j23983097380979_1_alg».proof.Proof.Gen.Kernel.Launch
import proofs.«124132_j23983097380979_1_alg».proof.Proof.Gen.Kernel.Points
import proofs.«124132_j23983097380979_1_alg».proof.Proof.Gen.Kernel.Frame
import proofs.«124132_j23983097380979_1_alg».proof.Proof.Gen.KernelIdeal
import proofs.«124132_j23983097380979_1_alg».proof.Proof.Gen.KernelIdeal.Skeleton
import proofs.«124132_j23983097380979_1_alg».proof.Proof.Gen.KernelIdeal.Launch
import proofs.«124132_j23983097380979_1_alg».proof.Proof.Gen.KernelIdeal.Points
import proofs.«124132_j23983097380979_1_alg».proof.Proof.Gen.KernelIdeal.Frame
import proofs.«124132_j23983097380979_1_alg».proof.Proof.Gen.ReferenceIdeal
import proofs.«124132_j23983097380979_1_alg».proof.Proof.Gen.Pre_finite_inputs
import proofs.«124132_j23983097380979_1_alg».proof.Proof.Gen.ReferenceIdeal.Run
import proofs.«124132_j23983097380979_1_alg».proof.Proof.Gen.ReferenceIdeal.Read
import proofs.«124132_j23983097380979_1_alg».proof.Proof.ResultOuter
import proofs.«124132_j23983097380979_1_alg».proof.Proof.RefOuter
import Idealize.ShloMosaic.Adequacy
import Idealize.ShloMosaic.Init

noncomputable section

namespace Cert.Proof

open Idealize.ShloMosaic Idealize.ShloMosaic.TcCoe Idealize.SL.Sem

/-- The word-level kernel runs and leaves its input unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its input unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From inputs that agree, both programs end at `outer` of the input. -/
theorem algebraic : Cert.algebraic_KernelIdeal_ReferenceIdeal := by
  intro m ρ m' ρ' _ hagree
  refine ⟨fun c => Cert.Outer.outer (m ((c : Thread Cert.KernelIdeal.nD Cert.KernelIdeal.τ).loc Cert.KernelIdeal.main_arg0)),
    Cert.KernelIdeal.ResultOuter.run m ρ, ?_⟩
  refine (θ_run Cert.ReferenceIdeal.defs _ _).mono (fun _ h c => ⟨?_, (h c).2⟩)
    (Cert.ReferenceIdeal.Value.run (F := Ideal) m' ρ')
  exact ((h c).1.trans (Cert.ReferenceIdeal.Read.val_main_v7_eq _)).trans
    ((Cert.ReferenceIdeal.RefOuter.ref_eq _).trans (congrArg Cert.Outer.outer (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
